-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S11008x4096 : Shape := ⟨2, ![11008, 4096]⟩
abbrev S11008 : Shape := ⟨1, ![11008]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x4096 .f32) (main_arg1 : IVec S11008x4096 32) (main_arg2 : FVec F S11008 .f32) (main_arg3 : FVec F S11008 .f32) : IVec S_ 1 :=
  let main_v0 : FVec F S4x4096 .f32 := Host.absf main_arg0
  let main_cst : FVec F S_ .f32 := constant S_ .f32 0x7F800000#32
  let main_v1 : FVec F S4x4096 .f32 := broadcastInDim S4x4096 ![] bcast_S_S4x4096 main_cst
  let main_v2 : IVec S4x4096 1 := cmpf .olt main_v0 main_v1
  let main_c : IVec S_ 1 := constantI S_ 1 1#1
  let main_v3 : IVec S_ 1 := (fun x v => Host.reduce IntOp.andi x v reducesTo_S4x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x4096 : Shape := ⟨2, ![4, 4096]⟩
abbrev S11008x4096 : Shape := ⟨2, ![11008, 4096]⟩
abbrev S11008 : Shape := ⟨1, ![11008]⟩
abbrev S1x11008 : Shape := ⟨2, ![1, 11008]⟩
abbrev S4x11008 : Shape := ⟨2, ![4, 11008]⟩
abbrev S256x4096 : Shape := ⟨2, ![256, 4096]⟩
abbrev S1x256 : Shape := ⟨2, ![1, 256]⟩
abbrev S4x256 : Shape := ⟨2, ![4, 256]⟩

abbrev nBuf : Space → Nat
  | .hbm => 7
  | .vmem => 9
  | .smem => 0
  | _ => 0

abbrev bufTy : (tb : Table) → Fin (tcTables nBuf tb) → BufTy
  | .hbm, ⟨0, _⟩ => ⟨S4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S1x11008, .f32⟩
  | .hbm, ⟨5, _⟩ => ⟨S1x11008, .f32⟩
  | .hbm, ⟨6, _⟩ => ⟨S4x11008, .f32⟩
  | .local _ .vmem, ⟨0, _⟩ => ⟨S4x4096, .f32⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S4x256, .f32⟩
  | .local _ .vmem, ⟨8, _⟩ => ⟨S4x256, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S1x11008 : S11008.ShapeCasts S1x11008
  inb_S4x4096_S4x4096_0_0 : ∀ a, (![0, 0] : Fin 2 → Nat) a + S4x4096.size a ≤ S4x4096.size a
  h_S4x4096 : 0 < S4x4096.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4x256 : S1x256.Broadcasts S4x256
  inb_S4x256_S4x256_0_0 : ∀ a, (![0, 0] : Fin 2 → Nat) a + S4x256.size a ≤ S4x256.size a
  h_S4x256 : 0 < S4x256.numel
  dot_S4x4096_S256x4096_S4x256_1_1_0_0_n_n_wf : DotDims.WF S4x4096 S256x4096 S4x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x4096.size a
  hwx0_0 : ∀ i : grid0.Coords, EltTy.bits .f32 = 32 ∨ (Rect.block (s := S4x4096) S4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x11008.size a
  hwx0_4 : ∀ i : grid0.Coords, EltTy.bits .f32 = 32 ∨ (Rect.block (s := S4x11008) S4x256.size (cc0_transform_4 i) (hinb0_4 i)).WholeWords (EltTy.packing .f32)

variable [Facts₀]

def dot_S4x4096_S256x4096_S4x256_1_1_0_0_n_n : DotDims S4x4096 S256x4096 S4x256 where
  lhsContracting := [1]
  rhsContracting := [1]
  lhsNonContracting := [0]
  rhsNonContracting := [0]
  lhsBatch := []
  rhsBatch := []
  wf := dot_S4x4096_S256x4096_S4x256_1_1_0_0_n_n_wf

abbrev win0_0 : Pipeline.Window sig grid0 :=
  Pipeline.Window.ofSpec (Memref.whole main_arg0) S4x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096 : Shape := ⟨2, ![4, 4096]⟩
abbrev S11008x4096 : Shape := ⟨2, ![11008, 4096]⟩
abbrev S11008 : Shape := ⟨1, ![11008]⟩
abbrev S11008x1 : Shape := ⟨2, ![11008, 1]⟩
abbrev S4x11008 : Shape := ⟨2, ![4, 11008]⟩
abbrev S1x11008 : Shape := ⟨2, ![1, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008x4096, .f32⟩
  | .hbm, ⟨5, _⟩ => ⟨S11008x1, .f32⟩
  | .hbm, ⟨6, _⟩ => ⟨S11008x4096, .f32⟩
  | .hbm, ⟨7, _⟩ => ⟨S11008x4096, .f32⟩
  | .hbm, ⟨8, _⟩ => ⟨S4x11008, .f32⟩
  | .hbm, ⟨9, _⟩ => ⟨S1x11008, .f32⟩
  | .hbm, ⟨10, _⟩ => ⟨S4x11008, .f32⟩
  | .hbm, ⟨11, _⟩ => ⟨S4x11008, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x11008_1 : S11008.BroadcastsInDim S1x11008 (![1] : Fin 1 → Fin S1x11008.rank)
  bcast_S1x11008_S4x11008_0_1 : S1x11008.BroadcastsInDim S4x11008 (![0, 1] : Fin 2 → Fin S4x11008.rank)
  dot_S4x4096_S11008x4096_S4x11008_1_1_0_0_n_n_wf : DotDims.WF S4x4096 S11008x4096 S4x11008 [1] [1] [0] [0] [] []

variable [Facts₀]

def dot_S4x4096_S11008x4096_S4x11008_1_1_0_0_n_n : DotDims S4x4096 S11008x4096 S4x11008 where
  lhsContracting := [1]
  rhsContracting := [1]
  lhsNonContracting := [0]
  rhsNonContracting := [0]
  lhsBatch := []
  rhsBatch := []
  wf := dot_S4x4096_S11008x4096_S4x11008_1_1_0_0_n_n_wf

class Facts : Prop extends Facts₀ where

variable [Facts]
-- ==== Proof.LibSumScale.lean ====
/-
  Finite sums on the extended reals whose terms are real numbers: the coercion commutes with the sum, and a real
  factor moves across a sum of products of reals. (On the extended reals multiplication does not distribute over
  addition in general — (1 + (−1)) · ∞ is 0 · ∞ = 0 while 1 · ∞ + (−1) · ∞ is ∞ + (−∞) — so each law takes the
  hypotheses that its terms are real.)
-/
import Mathlib.Data.EReal.Operations
import Mathlib.Algebra.BigOperators.Ring.Finset
import Mathlib.Tactic.Ring

open scoped BigOperators

namespace EReal.SumScale

/-- A finite sum of real numbers, coerced term by term, is the coercion of the real sum. -/
theorem coe_sum {ι : Type*} (t : Finset ι) (f : ι → ℝ) : (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- A real factor moves into a finite sum of products of reals, onto the second factor of each product:
    (∑ aₖ·bₖ)·s = ∑ aₖ·(bₖ·s) when every aₖ, every bₖ and s are real. -/
theorem sum_mul_mul_right {ι : Type*} (t : Finset ι) (a b : ι → EReal) (s : EReal)
    (ha : ∀ k, ∃ r : ℝ, a k = (r : EReal)) (hb : ∀ k, ∃ r : ℝ, b k = (r : EReal)) (hs : ∃ r : ℝ, s = (r : EReal)) :
    (∑ k ∈ t, a k * b k) * s = ∑ k ∈ t, a k * (b k * s) := by
  obtain ⟨sr, rfl⟩ := hs
  choose ar har using ha
  choose br hbr using hb
  simp only [har, hbr, ← EReal.coe_mul, coe_sum]
  exact congrArg _ (by rw [Finset.sum_mul]; exact Finset.sum_congr rfl fun k _ => by ring)

/-- The same with the factor in front: s·(∑ aₖ·bₖ) = ∑ (s·aₖ)·bₖ. -/
theorem mul_sum_mul_left {ι : Type*} (t : Finset ι) (a b : ι → EReal) (s : EReal)
    (ha : ∀ k, ∃ r : ℝ, a k = (r : EReal)) (hb : ∀ k, ∃ r : ℝ, b k = (r : EReal)) (hs : ∃ r : ℝ, s = (r : EReal)) :
    s * (∑ k ∈ t, a k * b k) = ∑ k ∈ t, (s * a k) * b k := by
  obtain ⟨sr, rfl⟩ := hs
  choose ar har using ha
  choose br hbr using hb
  simp only [har, hbr, ← EReal.coe_mul, coe_sum]
  exact congrArg _ (by rw [Finset.mul_sum]; exact Finset.sum_congr rfl fun k _ => by ring)

end EReal.SumScale
-- ==== Proof.Spec.lean ====
/-
  The quantized linear layer as one function of its four arguments, in the two arrangements the programs use,
  and the law that joins them.

  With x : [4, 4096] real, q : [11008, 4096] integer words, s and b : [11008] real:
    rowScaled  x q s b (r, o) = (∑ k, x(r, k) · q(o, k)) · s(o) + b(o)      -- scale applied to the finished row sum
    dequantized x q s b (r, o) = ∑ k, x(r, k) · (q(o, k) · s(o)) + b(o)      -- scale applied to every weight first
  An integer word enters as the real number it denotes (read signed). The two agree because a real factor moves
  across a finite sum of reals; on the extended reals that step needs x and s finite (with two terms 1 and −1 and
  s = ∞ the left side is 0 · ∞ = 0 while the right side is ∞ + (−∞)), which is why the law takes the two finiteness
  hypotheses and nothing about b.
-/
import Idealize.ShloMosaic.PureOps.Ideal
import Idealize.ShloMosaic.Lib.ValueIdx
import proofs.«166227_j57561151701240_1_alg».proof.Proof.LibSumScale

noncomputable section

open scoped BigOperators

namespace Cert.QLinear

open Idealize.ShloMosaic Idealize.ShloMosaic.ValueIdx

/-- The activations, the integer weights, a per-output-channel vector, the result. -/
abbrev XIdx := (⟨2, ![4, 4096]⟩ : Shape).Idx
abbrev QIdx := (⟨2, ![11008, 4096]⟩ : Shape).Idx
abbrev CIdx := (⟨1, ![11008]⟩ : Shape).Idx
abbrev OIdx := (⟨2, ![4, 11008]⟩ : Shape).Idx

/-- The real number an integer word denotes, read signed, as an extended real. -/
abbrev wordVal (w : BitVec 32) : EReal := ((w.toInt : ℝ) : EReal)

/-- Row sum first, then the channel's scale, then its bias: the entry at row r, output channel o. -/
def rowScaledAt (x : XIdx → EReal) (q : QIdx → BitVec 32) (s b : CIdx → EReal) (r : Fin 4) (o : Fin 11008) : EReal :=
  (∑ k : Fin 4096, x (ix2 r k) * wordVal (q (ix2 o k))) * s (ix1 o) + b (ix1 o)

/-- Every weight scaled by its channel first, then the row sum, then the bias: the entry at row r, channel o. -/
def dequantizedAt (x : XIdx → EReal) (q : QIdx → BitVec 32) (s b : CIdx → EReal) (r : Fin 4) (o : Fin 11008) : EReal :=
  (∑ k : Fin 4096, x (ix2 r k) * (wordVal (q (ix2 o k)) * s (ix1 o))) + b (ix1 o)

/-- The two arrangements as whole [4, 11008] arrays. -/
def rowScaled (x : XIdx → EReal) (q : QIdx → BitVec 32) (s b : CIdx → EReal) : OIdx → EReal :=
  fun j => rowScaledAt x q s b (j 0) (j 1)

def dequantized (x : XIdx → EReal) (q : QIdx → BitVec 32) (s b : CIdx → EReal) : OIdx → EReal :=
  fun j => dequantizedAt x q s b (j 0) (j 1)

/-- The two arrangements are one function where the activations and the scales are finite. -/
theorem dequantized_eq_rowScaled (x : XIdx → EReal) (q : QIdx → BitVec 32) (s b : CIdx → EReal)
    (hx : ∀ i, ∃ r : ℝ, x i = (r : EReal)) (hs : ∀ i, ∃ r : ℝ, s i = (r : EReal)) :
    dequantized x q s b = rowScaled x q s b := by
  funext j
  obtain ⟨r, o, rfl⟩ : ∃ (r : Fin 4) (o : Fin 11008), j = ix2 r o := ⟨j 0, j 1, eq_ix2 j⟩
  show dequantizedAt x q s b r o = rowScaledAt x q s b r o
  unfold dequantizedAt rowScaledAt
  rw [EReal.SumScale.sum_mul_mul_right Finset.univ (fun k => x (ix2 r k)) (fun k => wordVal (q (ix2 o k))) (s (ix1 o))
    (fun k => hx _) (fun k => ⟨_, rfl⟩) (hs _)]

end Cert.QLinear

end
-- ==== Proof.Finite.lean ====
/-
  What the precondition gives: every entry of the three float arguments is a real number.
  The precondition is the conjunction of three tests, one per float argument, each "all entries satisfy |v| < +∞".
  On the extended reals |v| is max v (−v), which is +∞ exactly at the two infinities, so the test singles out the reals.
-/
import proofs.«166227_j57561151701240_1_alg».proof.Pre_finite_inputs
import Idealize.ShloMosaic.PureOps.Ideal
import Idealize.ShloMosaic.Lib.ReduceAll
import Idealize.ShloMosaic.Lib.ValueIdx

noncomputable section

namespace Cert.QLinear.Finite

open Cert.Pre_finite_inputs Idealize.ShloMosaic

instance : Subsingleton S_.Idx := ⟨fun a b => funext fun d => d.elim0⟩

/-- An extended real whose absolute value is below +∞ is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

variable [Cert.Pre_finite_inputs.Facts]

/-- Under the precondition the activations, the scales and the biases are real at every index. -/
theorem reals_of_pre (x0 : FVec Ideal S4x4096 .f32) (x1 : IVec S11008x4096 32) (x2 x3 : FVec Ideal S11008 .f32)
    (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have h0 := congrFun h ValueIdx.ix0
  dsimp only [fn] at h0
  obtain ⟨h8, h12⟩ := IntOp.andi_eq_one.1 h0
  obtain ⟨h3, h7⟩ := IntOp.andi_eq_one.1 h8
  exact ⟨fun i => real_of_abs_lt_inf (x0 i) (Host.reduce_andi_all _ _ _ _ _ h3 i),
    fun i => real_of_abs_lt_inf (x2 i) (Host.reduce_andi_all _ _ _ _ _ h7 i),
    fun i => real_of_abs_lt_inf (x3 i) (Host.reduce_andi_all _ _ _ _ _ h12 i)⟩

end Cert.QLinear.Finite

end
-- ==== Proof.RefValue.lean ====
/-
  The reference program's result, read index by index, is the `dequantized` arrangement of the specification:
  convert the integer weights, scale each by its output channel's scale (the scale vector laid along axis 1),
  contract the activations against that over the 4096 inputs, add the bias laid along the rows.
  Each stage is read at an index by the generated read-at-an-index lemmas; what is left is to name the composed
  index functions by coordinates: the contraction reads x at (r, k) and the scaled weights at (o, k), the two
  broadcasts of the scales read s at o whatever k is, and the two broadcasts of the bias read b at o whatever r is.
-/
import proofs.«166227_j57561151701240_1_alg».proof.Proof.Gen.ReferenceIdeal.Read
import proofs.«166227_j57561151701240_1_alg».proof.Proof.Spec

noncomputable section

open scoped BigOperators

namespace Cert.QLinear.Ref

open Cert.ReferenceIdeal Cert.ReferenceIdeal.Read Idealize.ShloMosaic Idealize.ShloMosaic.ValueIdx Cert.QLinear

/-- The contraction's left operand index at output (r, o) and position k is (r, k). -/
theorem lidx_eq (r : Fin 4) (o : Fin 11008) (k : Fin 4096) : lidx_main_v4 (ix2 r o) k = ix2 r k :=
  funext fun a => Fin.ext (by match a with | ⟨0, _⟩ => rfl | ⟨1, _⟩ => rfl)

/-- Its right operand index is (o, k). -/
theorem ridx_eq (r : Fin 4) (o : Fin 11008) (k : Fin 4096) : ridx_main_v4 (ix2 r o) k = ix2 o k :=
  funext fun a => Fin.ext (by match a with | ⟨0, _⟩ => rfl | ⟨1, _⟩ => rfl)

/-- The scale broadcast to [11008, 1] and then along the 4096 inputs is read at channel o. -/
theorem sidx_eq (o : Fin 11008) (k : Fin 4096) : idx_main_v1 (idx_main_v2 (ix2 o k)) = ix1 o :=
  funext fun a => Fin.ext (by match a with | ⟨0, _⟩ => rfl)

/-- The bias broadcast to [1, 11008] and then down the 4 rows is read at channel o. -/
theorem bidx_eq (r : Fin 4) (o : Fin 11008) : idx_main_v5 (idx_main_v6 (ix2 r o)) = ix1 o :=
  funext fun a => Fin.ext (by match a with | ⟨0, _⟩ => rfl)

/-- The reference's last stage is `dequantized` of the four arguments. -/
theorem val_eq_dequantized (x0 : (⟨S4x4096, .f32⟩ : BufTy).Contents (Elt Ideal)) (x1 : (⟨S11008x4096, .i32⟩ : BufTy).Contents (Elt Ideal))
    (x2 x3 : (⟨S11008, .f32⟩ : BufTy).Contents (Elt Ideal)) :
    val_main_v7 (F := Ideal) x0 x1 x2 x3 = dequantized x0 x1 x2 x3 := by
  funext i
  obtain ⟨r, o, rfl⟩ : ∃ (r : Fin 4) (o : Fin 11008), i = ix2 r o := ⟨i 0, i 1, eq_ix2 i⟩
  rw [val_main_v7_apply, val_main_v4_apply, val_main_v6_apply, val_main_v5_apply, bidx_eq]
  show (∑ k : Fin 4096, x0 (lidx_main_v4 (ix2 r o) k) * val_main_v3 (F := Ideal) x1 x2 (ridx_main_v4 (ix2 r o) k)) + x3 (ix1 o)
    = (∑ k : Fin 4096, x0 (ix2 r k) * (wordVal (x1 (ix2 o k)) * x2 (ix1 o))) + x3 (ix1 o)
  refine congrArg (· + x3 (ix1 o)) (Finset.sum_congr rfl fun k _ => ?_)
  rw [lidx_eq, ridx_eq, val_main_v3_apply, val_main_v0_apply, val_main_v2_apply, val_main_v1_apply, sidx_eq]
  rfl

end Cert.QLinear.Ref

end
-- ==== Proof.KernelBlock.lean ====
/-
  One grid point of the kernel, as arithmetic. The body loads the whole [4, 4096] activations, a [256, 4096] block of
  integer weights, and the matching [1, 256] blocks of scales and biases; it multiplies activations against the
  converted weights with both operands contracted along their axis 1, scales the [4, 256] product by the scales' one
  row laid down the four rows, and adds the biases' one row the same way. Read at (p, r):
    (∑ k, x(p, k) · w(r, k)) · s(0, r) + b(0, r),
  the narrowing of x before the product and the integer conversion of w being exact on the extended reals.
-/
import proofs.«166227_j57561151701240_1_alg».proof.Proof.Gen.KernelIdeal.Skeleton
import proofs.«166227_j57561151701240_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.QLinear.Block

open Cert.KernelIdeal Cert.KernelIdeal.Gen Idealize.ShloMosaic Idealize.ShloMosaic.ValueIdx Cert.QLinear

/-! ## The product's operand indices: x at (row, k), w at (column, k) -/

theorem lhs_axis0 (i : S4x256.Idx) (q : dot_S4x4096_S256x4096_S4x256_1_1_0_0_n_n.contr.Idx) :
    (dot_S4x4096_S256x4096_S4x256_1_1_0_0_n_n.lhsIdx i q 0).val = (i 0).val := by
  unfold DotDims.lhsIdx
  rw [dif_neg (show ¬(0 : Fin S4x4096.rank) ∈ dot_S4x4096_S256x4096_S4x256_1_1_0_0_n_n.lhsBatch by decide), dif_pos (show (0 : Fin S4x4096.rank) ∈ dot_S4x4096_S256x4096_S4x256_1_1_0_0_n_n.lhsNonContracting by decide)]
  rfl
theorem lhs_axis1 (i : S4x256.Idx) (q : dot_S4x4096_S256x4096_S4x256_1_1_0_0_n_n.contr.Idx) :
    (dot_S4x4096_S256x4096_S4x256_1_1_0_0_n_n.lhsIdx i q 1).val = (q ⟨0, by decide⟩).val :=
  dot_S4x4096_S256x4096_S4x256_1_1_0_0_n_n.lhsIdx_val_of_single rfl i q
theorem rhs_axis0 (i : S4x256.Idx) (q : dot_S4x4096_S256x4096_S4x256_1_1_0_0_n_n.contr.Idx) :
    (dot_S4x4096_S256x4096_S4x256_1_1_0_0_n_n.rhsIdx i q 0).val = (i 1).val := by
  unfold DotDims.rhsIdx
  rw [dif_neg (show ¬(0 : Fin S256x4096.rank) ∈ dot_S4x4096_S256x4096_S4x256_1_1_0_0_n_n.rhsBatch by decide), dif_pos (show (0 : Fin S256x4096.rank) ∈ dot_S4x4096_S256x4096_S4x256_1_1_0_0_n_n.rhsNonContracting by decide)]
  rfl
theorem rhs_axis1 (i : S4x256.Idx) (q : dot_S4x4096_S256x4096_S4x256_1_1_0_0_n_n.contr.Idx) :
    (dot_S4x4096_S256x4096_S4x256_1_1_0_0_n_n.rhsIdx i q 1).val = (q ⟨0, by decide⟩).val :=
  dot_S4x4096_S256x4096_S4x256_1_1_0_0_n_n.rhsIdx_val_of_single rfl i q

/-- The product into the zero accumulator, read at (p, r): the sum over the 4096 inputs of a(p, k) · w(r, k). -/
theorem matmul_at (a : FVec Ideal S4x4096 .bf16) (w : FVec Ideal S256x4096 .bf16) (p : Fin 4) (r : Fin 256) :
    matmul dot_S4x4096_S256x4096_S4x256_1_1_0_0_n_n none a w (constant S4x256 .f32 0x00000000#32) (ix2 p r)
      = ∑ k : Fin 4096, a (ix2 p k) * w (ix2 r k) := by
  simp only [matmul]
  rw [Ideal.matmul_constant_zero_apply, ← Equiv.sum_comp (contrEquiv1 dot_S4x4096_S256x4096_S4x256_1_1_0_0_n_n 4096 rfl rfl).symm]
  refine Finset.sum_congr rfl fun k _ => ?_
  have hk := contrEquiv1_symm_val dot_S4x4096_S256x4096_S4x256_1_1_0_0_n_n 4096 rfl rfl k
  have el : dot_S4x4096_S256x4096_S4x256_1_1_0_0_n_n.lhsIdx (ix2 p r) ((contrEquiv1 dot_S4x4096_S256x4096_S4x256_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S4x4096_S256x4096_S4x256_1_1_0_0_n_n.rhsIdx (ix2 p r) ((contrEquiv1 dot_S4x4096_S256x4096_S4x256_1_1_0_0_n_n 4096 rfl rfl).symm k) = ix2 r k := funext fun ax => Fin.ext (by
    match ax with
    | ⟨0, _⟩ => exact rhs_axis0 _ _
    | ⟨1, _⟩ => exact (rhs_axis1 _ _).trans hk)
  rw [el, er]

/-! ## The stored value at an index -/

/-- What the body stores at (p, r), from its four loads. -/
theorem stored_at (x : Vec Ideal S4x4096 .f32) (w : Vec Ideal S256x4096 .i32) (s b : Vec Ideal S1x256 .f32) (p : Fin 4) (r : Fin 256) :
    k0_pay1 (F := Ideal) x w s b (ix2 p r)
      = (∑ k : Fin 4096, x (ix2 p k) * wordVal (w (ix2 r k))) * s (ix2 (0 : Fin 1) r) + b (ix2 (0 : Fin 1) r) := by
  show (addf (F := Ideal) (mulf (F := Ideal) (matmul (F := Ideal) dot_S4x4096_S256x4096_S4x256_1_1_0_0_n_n none (truncf (F := Ideal) .bf16 x bitsLt_bf16_f32) (sitofp (F := Ideal) .bf16 w) (constant (F := Ideal) S4x256 .f32 0x00000000#32))
      (broadcastTo S4x256 (shapeCast S1x256 s shapeCasts_S1x256_S1x256) broadcasts_S1x256_S4x256))
      (broadcastTo S4x256 (shapeCast S1x256 b shapeCasts_S1x256_S1x256) broadcasts_S1x256_S4x256)) (ix2 p r) = _
  rw [addf_apply, mulf_apply, matmul_at, broadcastTo_1b_ab_apply, broadcastTo_1b_ab_apply, shapeCast_self, shapeCast_self]
  rfl

end Cert.QLinear.Block

end
-- ==== Proof.KernelValue.lean ====
/-
  From grid points to the whole result array. The grid has 43 points; point t works on output channels
  256·t … 256·t + 255: it is handed all of x, rows 256·t … of the weights, and columns 256·t … of the scales and
  biases (each first recast by the host from [11008] to one row [1, 11008]), and writes back columns 256·t … of the
  [4, 11008] result. So entry (p, r) of what point t writes is `rowScaledAt` of the four ARGUMENT arrays at row p and
  channel 256·t + r, the 43 column blocks tile the result (channel o lies in block o / 256), and the result array ends
  as `rowScaled` of the arguments.
-/
import proofs.«166227_j57561151701240_1_alg».proof.Proof.Gen.KernelIdeal.Value
import proofs.«166227_j57561151701240_1_alg».proof.Proof.KernelBlock
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.QLinear.Kernel

open Cert.KernelIdeal Cert.KernelIdeal.Gen Cert.KernelIdeal.Value Idealize.ShloMosaic Idealize.ShloMosaic.TcCoe Idealize.SL.Sem
open Idealize.ShloMosaic.ValueIdx Cert.QLinear
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array: `rowScaled` of the four arguments as launched. -/
abbrev result (c : Dev nD) : S4x11008.Idx → EReal :=
  rowScaled (m ((c : Thread nD τ).loc main_arg0)) (m ((c : Thread nD τ).loc main_arg1))
    (m ((c : Thread nD τ).loc main_arg2)) (m ((c : Thread nD τ).loc main_arg3))

/-! ## The index maps over the grid -/

/-- x is handed whole at every point; the weights move down their rows and the scales, biases and result along their
    columns, all by the point's number. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- Output channel 256·t + r: column r of point t's block. -/
def chan (t : Fin cfg0.N) (r : Fin 256) : Fin 11008 :=
  ⟨t.val * 256 + r.val, by have h := t.isLt; have hN : cfg0.N = 43 := N_0; have := r.isLt; omega⟩

/-! ## The scales and biases as the region finds them: the host's one-row recasts -/

theorem scales_row (c : Dev nD) : (V m c main_v0 : S1x11008.Idx → EReal)
    = shapeCast S1x11008 (m ((c : Thread nD τ).loc main_arg2) : S11008.Idx → EReal) shapeCasts_S11008_S1x11008 := by
  dsimp only [Gen.V, Gen.hostOps0]; after_results; rfl

theorem biases_row (c : Dev nD) : (V m c main_v1 : S1x11008.Idx → EReal)
    = shapeCast S1x11008 (m ((c : Thread nD τ).loc main_arg3) : S11008.Idx → EReal) shapeCasts_S11008_S1x11008 := by
  dsimp only [Gen.V, Gen.hostOps0]; after_results; rfl

/-! ## Each input block, read at coordinates, is the argument at the point's channels -/

theorem x_block (c : Dev nD) (t : Fin cfg0.N) (p : Fin 4) (k : Fin 4096) :
    (iblk m c 0 t : Vec Ideal S4x4096 .f32) (ix2 p k) = (m ((c : Thread nD τ).loc main_arg0) : S4x4096.Idx → EReal) (ix2 p k) := by
  obtain ⟨e00, e01, -⟩ := idx_facts t
  unfold iblk
  rw [View.read_apply]
  show V m c main_arg0 _ = _
  rw [V_main_arg0]
  congr 1
  funext a
  apply Fin.ext
  match a with
  | ⟨0, _⟩ => show win0_0.index t (0 : Fin 2) * 4 + 1 * p.val = p.val; omega
  | ⟨1, _⟩ => show win0_0.index t (1 : Fin 2) * 4096 + 1 * k.val = k.val; omega

theorem w_block (c : Dev nD) (t : Fin cfg0.N) (r : Fin 256) (k : Fin 4096) :
    (iblk m c 1 t : Vec Ideal S256x4096 .i32) (ix2 r k) = (m ((c : Thread nD τ).loc main_arg1) : S11008x4096.Idx → BitVec 32) (ix2 (chan t r) k) := by
  obtain ⟨-, -, e10, e11, -⟩ := idx_facts t
  unfold iblk
  rw [View.read_apply]
  show V m c main_arg1 _ = _
  rw [V_main_arg1]
  congr 1
  funext a
  apply Fin.ext
  match a with
  | ⟨0, _⟩ => show win0_1.index t (0 : Fin 2) * 256 + 1 * r.val = t.val * 256 + r.val; omega
  | ⟨1, _⟩ => show win0_1.index t (1 : Fin 2) * 4096 + 1 * k.val = k.val; omega

theorem s_block (c : Dev nD) (t : Fin cfg0.N) (r : Fin 256) :
    (iblk m c 2 t : Vec Ideal S1x256 .f32) (ix2 (0 : Fin 1) r) = (m ((c : Thread nD τ).loc main_arg2) : S11008.Idx → EReal) (ix1 (chan t r)) := by
  obtain ⟨-, -, -, -, e20, e21, -⟩ := idx_facts t
  have he : ((cfg0.win 2).blk t).view.emb (ix2 (0 : Fin 1) r) = (ix2 (0 : Fin 1) (chan t r) : S1x11008.Idx) := by
    funext a
    apply Fin.ext
    match a with
    | ⟨0, _⟩ => show win0_2.index t (0 : Fin 2) * 1 + 1 * 0 = 0; omega
    | ⟨1, _⟩ => show win0_2.index t (1 : Fin 2) * 256 + 1 * r.val = t.val * 256 + r.val; omega
  unfold iblk
  rw [View.read_apply]
  show V m c main_v0 (((cfg0.win 2).blk t).view.emb (ix2 (0 : Fin 1) r)) = _
  rw [he, scales_row]
  exact shapeCast_a_1a_apply _ _ 0 (chan t r)

theorem b_block (c : Dev nD) (t : Fin cfg0.N) (r : Fin 256) :
    (iblk m c 3 t : Vec Ideal S1x256 .f32) (ix2 (0 : Fin 1) r) = (m ((c : Thread nD τ).loc main_arg3) : S11008.Idx → EReal) (ix1 (chan t r)) := by
  obtain ⟨-, -, -, -, -, -, e30, e31, -⟩ := idx_facts t
  have he : ((cfg0.win 3).blk t).view.emb (ix2 (0 : Fin 1) r) = (ix2 (0 : Fin 1) (chan t r) : S1x11008.Idx) := by
    funext a
    apply Fin.ext
    match a with
    | ⟨0, _⟩ => show win0_3.index t (0 : Fin 2) * 1 + 1 * 0 = 0; omega
    | ⟨1, _⟩ => show win0_3.index t (1 : Fin 2) * 256 + 1 * r.val = t.val * 256 + r.val; omega
  unfold iblk
  rw [View.read_apply]
  show V m c main_v1 (((cfg0.win 3).blk t).view.emb (ix2 (0 : Fin 1) r)) = _
  rw [he, biases_row]
  exact shapeCast_a_1a_apply _ _ 0 (chan t r)

/-! ## What a point writes back -/

/-- Point t writes back its column block of `result`. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S4x4096) hz, View.ld_unit_zero (S := S256x4096) hz, View.ld_unit_zero (S := S1x256) hz]
  obtain ⟨-, -, -, -, -, -, -, -, e40, e41⟩ := idx_facts t
  funext j
  obtain ⟨p, r, rfl⟩ : ∃ (p : Fin 4) (r : Fin 256), j = ix2 p r := ⟨j 0, j 1, eq_ix2 j⟩
  have he : ((cfg0.win 4).blk t).view.emb (ix2 p r) = (ix2 p (chan t r) : S4x11008.Idx) := by
    funext a
    apply Fin.ext
    match a with
    | ⟨0, _⟩ => show win0_4.index t (0 : Fin 2) * 4 + 1 * p.val = p.val; omega
    | ⟨1, _⟩ => show win0_4.index t (1 : Fin 2) * 256 + 1 * r.val = t.val * 256 + r.val; omega
  show k0_pay1 (F := Ideal) (iblk m c 0 t) (iblk m c 1 t) (iblk m c 2 t) (iblk m c 3 t) (ix2 p r)
    = result m c (((cfg0.win 4).blk t).view.emb (ix2 p r))
  rw [he]
  refine (Block.stored_at (iblk m c 0 t) (iblk m c 1 t) (iblk m c 2 t) (iblk m c 3 t) p r).trans ?_
  show _ = rowScaledAt _ _ _ _ p (chan t r)
  unfold rowScaledAt
  rw [s_block m c t r, b_block m c t r]
  refine congrArg (fun z => z * _ + _) (Finset.sum_congr rfl fun k _ => ?_)
  rw [x_block m c t p k, w_block m c t r k]

/-! ## The blocks tile the result -/

theorem mem_blk (t : Fin cfg0.N) (i : S4x11008.Idx) :
    i ∈ ((cfg0.win 4).blk t).view.set ↔ ∀ a : Fin 2, win0_4.index t a * S4x256.size a ≤ (i a).val ∧ (i a).val < win0_4.index t a * S4x256.size a + S4x256.size a := by
  show i ∈ ((View.whole main_v2).slice (win0_4.rect t)).set ↔ _
  rw [View.set_slice_whole, Rect.mem_set_unit]
  exact Iff.rfl

/-- Channel o is in the block of point o / 256. -/
theorem covered (i : S4x11008.Idx) : ∃ t : Fin cfg0.N, (cfg0.win 4).flush t = true ∧ i ∈ ((cfg0.win 4).blk t).view.set := by
  have hi0 : (i 0).val < 4 := (i 0).isLt
  have hi1 : (i 1).val < 11008 := (i 1).isLt
  have hN : cfg0.N = 43 := N_0
  obtain ⟨t, ht⟩ : ∃ t : Fin cfg0.N, t.val = (i 1).val / 256 := ⟨⟨(i 1).val / 256, by omega⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 4 ≤ (i 0).val ∧ (i 0).val < win0_4.index t (0 : Fin 2) * 4 + 4; omega
  | ⟨1, _⟩ => show win0_4.index t (1 : Fin 2) * 256 ≤ (i 1).val ∧ (i 1).val < win0_4.index t (1 : Fin 2) * 256 + 256; omega

/-- The result array after the run. -/
theorem final (c : Dev nD) : (dats m 0 c).arrAt 4 cfg0.N = result m c :=
  (dats m 0 c).arrAt_eq_of_cover 4 (result m c) (fun t _ => flushed_eq m c t) (covered)

/-! ## The run -/

/-- Every weakly fair execution of the kernel's program ends with the result array at `rowScaled` of the arguments and
    the arguments as launched. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.QLinear.Kernel

end
-- ==== Proof.lean ====
/-
  A quantized linear layer, out = x · (q ⊙ s)ᵀ + b with x : f32[4, 4096], integer weights q : i32[11008, 4096] and
  per-output-channel scales s and biases b : f32[11008], computed two ways.

  The kernel walks the 11008 output channels in 43 blocks of 256. For a block it converts the weights to floating point,
  multiplies the narrowed activations against them (both contracted along their 4096 inputs, into a zero accumulator),
  and only then applies the block's scales and biases, each laid down the four rows:
      out(r, o) = (∑ k, x(r, k) · q(o, k)) · s(o) + b(o).
  The reference dequantizes first, scaling every weight by its channel's scale, and then contracts and adds the bias:
      out(r, o) = ∑ k, x(r, k) · (q(o, k) · s(o)) + b(o).
  On the extended reals the narrowing of x is the identity and an integer word converts to the real number it denotes
  whatever the target format, so the two differ only in where the factor s(o) sits: inside or outside the sum. A factor
  moves across a finite sum when the terms and the factor are real, which is what the precondition (every float input
  finite) provides for x and s; nothing is needed of b, which is added last on both sides.

  The three frames are the generated ones (the reference's is its run with the value dropped); no rewrite was applied
  in printing the idealized kernel, so that conjunct is trivial; the value claim puts the kernel's result array
  (Proof/KernelValue.lean, over Proof/KernelBlock.lean) and the reference's (Proof/RefValue.lean) at the two
  arrangements of Proof/Spec.lean and joins them by its law under the finiteness read off the precondition
  (Proof/Finite.lean).
-/
import proofs.«166227_j57561151701240_1_alg».proof.Defs
import proofs.«166227_j57561151701240_1_alg».proof.Proof.Gen.Kernel
import proofs.«166227_j57561151701240_1_alg».proof.Proof.Gen.Kernel.Skeleton
import proofs.«166227_j57561151701240_1_alg».proof.Proof.Gen.Kernel.Launch
import proofs.«166227_j57561151701240_1_alg».proof.Proof.Gen.Kernel.Points
import proofs.«166227_j57561151701240_1_alg».proof.Proof.Gen.Kernel.Frame
import proofs.«166227_j57561151701240_1_alg».proof.Proof.Gen.KernelIdeal
import proofs.«166227_j57561151701240_1_alg».proof.Proof.Gen.KernelIdeal.Skeleton
import proofs.«166227_j57561151701240_1_alg».proof.Proof.Gen.KernelIdeal.Launch
import proofs.«166227_j57561151701240_1_alg».proof.Proof.Gen.KernelIdeal.Points
import proofs.«166227_j57561151701240_1_alg».proof.Proof.Gen.KernelIdeal.Frame
import proofs.«166227_j57561151701240_1_alg».proof.Proof.Gen.ReferenceIdeal
import proofs.«166227_j57561151701240_1_alg».proof.Proof.Gen.Pre_finite_inputs
import proofs.«166227_j57561151701240_1_alg».proof.Proof.Gen.KernelIdeal.Value
import proofs.«166227_j57561151701240_1_alg».proof.Proof.Gen.ReferenceIdeal.Run
import proofs.«166227_j57561151701240_1_alg».proof.Proof.Gen.ReferenceIdeal.Read
import proofs.«166227_j57561151701240_1_alg».proof.Proof.Spec
import proofs.«166227_j57561151701240_1_alg».proof.Proof.Finite
import proofs.«166227_j57561151701240_1_alg».proof.Proof.RefValue
import proofs.«166227_j57561151701240_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in printing the idealized kernel. -/
theorem preserves : Cert.preserves_Kernel_KernelIdeal := trivial

/-- Both programs end with the result at (∑ k, x(r, k) · q(o, k)) · s(o) + b(o): the kernel computes it in that
    arrangement, the reference with s(o) inside the sum, and x and s are real under the precondition. -/
theorem algebraic : Cert.algebraic_KernelIdeal_ReferenceIdeal := by
  intro m ρ m' ρ' hpre hagree
  refine ⟨fun c => Cert.QLinear.Kernel.result m c, Cert.QLinear.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hs, -⟩ := Cert.QLinear.Finite.reals_of_pre _ _ _ _ (hpre c)
  rw [Cert.ReferenceIdeal.Read.val_main_v7_eq, Cert.QLinear.Ref.val_eq_dequantized,
    (hagree c).1, (hagree c).2.1, (hagree c).2.2.1, (hagree c).2.2.2]
  exact Cert.QLinear.dequantized_eq_rowScaled _ _ _ _ hx hs

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
